-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32
  ∧ IdealRules.sign_bit.Statement Cert.KernelIdeal.S344x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S352256 : Shape := ⟨1, ![352256]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S352256 : S_.BroadcastsInDim S352256 (![] : Fin 0 → Fin S352256.rank)
  reducesTo_S352256_S_d0 : S352256.ReducesTo [0] S_

variable [Facts]

def fn_part1 {F : FTy → Type} [FloatOps F] (main_v13 : IVec S_ 1) (main_v16 : IVec S352256 1) : IVec S_ 1 :=
  let main_c_5 : IVec S_ 1 := constantI S_ 1 1#1
  let main_v17 : IVec S_ 1 := (fun x v => Host.reduce IntOp.andi x v reducesTo_S352256_S_d0 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008 .f32) (main_arg3 : FVec F S352256 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S352256 .f32 := Host.absf main_arg3
  let main_cst_4 : FVec F S_ .f32 := constant S_ .f32 0x7F800000#32
  let main_v15 : FVec F S352256 .f32 := broadcastInDim S352256 ![] bcast_S_S352256 main_cst_4
  let main_v16 : IVec S352256 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S352256 : Shape := ⟨1, ![352256]⟩
abbrev S11008x32 : Shape := ⟨2, ![11008, 32]⟩
abbrev S344x4096 : Shape := ⟨2, ![344, 4096]⟩
abbrev S344x32 : Shape := ⟨2, ![344, 32]⟩
abbrev S344x128 : Shape := ⟨2, ![344, 128]⟩
abbrev S344x1 : Shape := ⟨2, ![344, 1]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩
abbrev S4x2048x11008 : Shape := ⟨3, ![4, 2048, 11008]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S352256, .f32⟩
  | .hbm, ⟨4, _⟩ => ⟨S11008x32, .f32⟩
  | .hbm, ⟨5, _⟩ => ⟨S11008x4096, .bf16⟩
  | .hbm, ⟨6, _⟩ => ⟨S8192x4096, .f32⟩
  | .hbm, ⟨7, _⟩ => ⟨S1x11008, .f32⟩
  | .hbm, ⟨8, _⟩ => ⟨S8192x11008, .f32⟩
  | .hbm, ⟨9, _⟩ => ⟨S4x2048x11008, .f32⟩
  | .local _ .vmem, ⟨0, _⟩ => ⟨S344x4096, .f32⟩
  | .local _ .vmem, ⟨1, _⟩ => ⟨S344x4096, .f32⟩
  | .local _ .vmem, ⟨2, _⟩ => ⟨S344x32, .f32⟩
  | .local _ .vmem, ⟨3, _⟩ => ⟨S344x32, .f32⟩
  | .local _ .vmem, ⟨4, _⟩ => ⟨S344x4096, .bf16⟩
  | .local _ .vmem, ⟨5, _⟩ => ⟨S344x4096, .bf16⟩
  | .local _ .vmem, ⟨6, _⟩ => ⟨S512x4096, .f32⟩
  | .local _ .vmem, ⟨7, _⟩ => ⟨S512x4096, .f32⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S344x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S344x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S344x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S352256_S11008x32 : S352256.ShapeCasts S11008x32
  inb_S344x4096_S344x128_0_0 : ∀ a, (![0, 0] : Fin 2 → Nat) a + S344x128.size a ≤ S344x4096.size a
  h_S344x128 : 0 < S344x128.numel
  inb_S344x32_S344x1_0_0 : ∀ a, (![0, 0] : Fin 2 → Nat) a + S344x1.size a ≤ S344x32.size a
  h_S344x1 : 0 < S344x1.numel
  shapeCasts_S344x1_S344x1 : S344x1.ShapeCasts S344x1
  broadcasts_S344x1_S344x128 : S344x1.Broadcasts S344x128
  bitsLt_bf16_f32 : FTy.bits .bf16 < FTy.bits .f32
  packedbf16_S344x4096_S344x128_0_0 : (Rect.unit (s := S344x4096) ![0, 0] S344x128.size inb_S344x4096_S344x128_0_0).PackedRows (EltTy.packing .bf16)
  inb_S344x4096_S344x128_0_128 : ∀ a, (![0, 128] : Fin 2 → Nat) a + S344x128.size a ≤ S344x4096.size a
  inb_S344x32_S344x1_0_1 : ∀ a, (![0, 1] : Fin 2 → Nat) a + S344x1.size a ≤ S344x32.size a
  packedbf16_S344x4096_S344x128_0_128 : (Rect.unit (s := S344x4096) ![0, 128] S344x128.size inb_S344x4096_S344x128_0_128).PackedRows (EltTy.packing .bf16)
  inb_S344x4096_S344x128_0_256 : ∀ a, (![0, 256] : Fin 2 → Nat) a + S344x128.size a ≤ S344x4096.size a
  inb_S344x32_S344x1_0_2 : ∀ a, (![0, 2] : Fin 2 → Nat) a + S344x1.size a ≤ S344x32.size a
  packedbf16_S344x4096_S344x128_0_256 : (Rect.unit (s := S344x4096) ![0, 256] S344x128.size inb_S344x4096_S344x128_0_256).PackedRows (EltTy.packing .bf16)
  inb_S344x4096_S344x128_0_384 : ∀ a, (![0, 384] : Fin 2 → Nat) a + S344x128.size a ≤ S344x4096.size a
  inb_S344x32_S344x1_0_3 : ∀ a, (![0, 3] : Fin 2 → Nat) a + S344x1.size a ≤ S344x32.size a
  packedbf16_S344x4096_S344x128_0_384 : (Rect.unit (s := S344x4096) ![0, 384] S344x128.size inb_S344x4096_S344x128_0_384).PackedRows (EltTy.packing .bf16)
  inb_S344x4096_S344x128_0_512 : ∀ a, (![0, 512] : Fin 2 → Nat) a + S344x128.size a ≤ S344x4096.size a
  inb_S344x32_S344x1_0_4 : ∀ a, (![0, 4] : Fin 2 → Nat) a + S344x1.size a ≤ S344x32.size a
  packedbf16_S344x4096_S344x128_0_512 : (Rect.unit (s := S344x4096) ![0, 512] S344x128.size inb_S344x4096_S344x128_0_512).PackedRows (EltTy.packing .bf16)
  inb_S344x4096_S344x128_0_640 : ∀ a, (![0, 640] : Fin 2 → Nat) a + S344x128.size a ≤ S344x4096.size a
  inb_S344x32_S344x1_0_5 : ∀ a, (![0, 5] : Fin 2 → Nat) a + S344x1.size a ≤ S344x32.size a
  packedbf16_S344x4096_S344x128_0_640 : (Rect.unit (s := S344x4096) ![0, 640] S344x128.size inb_S344x4096_S344x128_0_640).PackedRows (EltTy.packing .bf16)
  inb_S344x4096_S344x128_0_768 : ∀ a, (![0, 768] : Fin 2 → Nat) a + S344x128.size a ≤ S344x4096.size a
  inb_S344x32_S344x1_0_6 : ∀ a, (![0, 6] : Fin 2 → Nat) a + S344x1.size a ≤ S344x32.size a
  packedbf16_S344x4096_S344x128_0_768 : (Rect.unit (s := S344x4096) ![0, 768] S344x128.size inb_S344x4096_S344x128_0_768).PackedRows (EltTy.packing .bf16)
  inb_S344x4096_S344x128_0_896 : ∀ a, (![0, 896] : Fin 2 → Nat) a + S344x128.size a ≤ S344x4096.size a
  inb_S344x32_S344x1_0_7 : ∀ a, (![0, 7] : Fin 2 → Nat) a + S344x1.size a ≤ S344x32.size a
  packedbf16_S344x4096_S344x128_0_896 : (Rect.unit (s := S344x4096) ![0, 896] S344x128.size inb_S344x4096_S344x128_0_896).PackedRows (EltTy.packing .bf16)
  inb_S344x4096_S344x128_0_1024 : ∀ a, (![0, 1024] : Fin 2 → Nat) a + S344x128.size a ≤ S344x4096.size a
  inb_S344x32_S344x1_0_8 : ∀ a, (![0, 8] : Fin 2 → Nat) a + S344x1.size a ≤ S344x32.size a
  packedbf16_S344x4096_S344x128_0_1024 : (Rect.unit (s := S344x4096) ![0, 1024] S344x128.size inb_S344x4096_S344x128_0_1024).PackedRows (EltTy.packing .bf16)
  inb_S344x4096_S344x128_0_1152 : ∀ a, (![0, 1152] : Fin 2 → Nat) a + S344x128.size a ≤ S344x4096.size a
  inb_S344x32_S344x1_0_9 : ∀ a, (![0, 9] : Fin 2 → Nat) a + S344x1.size a ≤ S344x32.size a
  packedbf16_S344x4096_S344x128_0_1152 : (Rect.unit (s := S344x4096) ![0, 1152] S344x128.size inb_S344x4096_S344x128_0_1152).PackedRows (EltTy.packing .bf16)
  inb_S344x4096_S344x128_0_1280 : ∀ a, (![0, 1280] : Fin 2 → Nat) a + S344x128.size a ≤ S344x4096.size a
  inb_S344x32_S344x1_0_10 : ∀ a, (![0, 10] : Fin 2 → Nat) a + S344x1.size a ≤ S344x32.size a
  packedbf16_S344x4096_S344x128_0_1280 : (Rect.unit (s := S344x4096) ![0, 1280] S344x128.size inb_S344x4096_S344x128_0_1280).PackedRows (EltTy.packing .bf16)
  inb_S344x4096_S344x128_0_1408 : ∀ a, (![0, 1408] : Fin 2 → Nat) a + S344x128.size a ≤ S344x4096.size a
  inb_S344x32_S344x1_0_11 : ∀ a, (![0, 11] : Fin 2 → Nat) a + S344x1.size a ≤ S344x32.size a
  packedbf16_S344x4096_S344x128_0_1408 : (Rect.unit (s := S344x4096) ![0, 1408] S344x128.size inb_S344x4096_S344x128_0_1408).PackedRows (EltTy.packing .bf16)
  inb_S344x4096_S344x128_0_1536 : ∀ a, (![0, 1536] : Fin 2 → Nat) a + S344x128.size a ≤ S344x4096.size a
  inb_S344x32_S344x1_0_12 : ∀ a, (![0, 12] : Fin 2 → Nat) a + S344x1.size a ≤ S344x32.size a
  packedbf16_S344x4096_S344x128_0_1536 : (Rect.unit (s := S344x4096) ![0, 1536] S344x128.size inb_S344x4096_S344x128_0_1536).PackedRows (EltTy.packing .bf16)
  inb_S344x4096_S344x128_0_1664 : ∀ a, (![0, 1664] : Fin 2 → Nat) a + S344x128.size a ≤ S344x4096.size a
  inb_S344x32_S344x1_0_13 : ∀ a, (![0, 13] : Fin 2 → Nat) a + S344x1.size a ≤ S344x32.size a
  packedbf16_S344x4096_S344x128_0_1664 : (Rect.unit (s := S344x4096) ![0, 1664] S344x128.size inb_S344x4096_S344x128_0_1664).PackedRows (EltTy.packing .bf16)
  inb_S344x4096_S344x128_0_1792 : ∀ a, (![0, 1792] : Fin 2 → Nat) a + S344x128.size a ≤ S344x4096.size a
  inb_S344x32_S344x1_0_14 : ∀ a, (![0, 14] : Fin 2 → Nat) a + S344x1.size a ≤ S344x32.size a
  packedbf16_S344x4096_S344x128_0_1792 : (Rect.unit (s := S344x4096) ![0, 1792] S344x128.size inb_S344x4096_S344x128_0_1792).PackedRows (EltTy.packing .bf16)
  inb_S344x4096_S344x128_0_1920 : ∀ a, (![0, 1920] : Fin 2 → Nat) a + S344x128.size a ≤ S344x4096.size a
  inb_S344x32_S344x1_0_15 : ∀ a, (![0, 15] : Fin 2 → Nat) a + S344x1.size a ≤ S344x32.size a
  packedbf16_S344x4096_S344x128_0_1920 : (Rect.unit (s := S344x4096) ![0, 1920] S344x128.size inb_S344x4096_S344x128_0_1920).PackedRows (EltTy.packing .bf16)
  inb_S344x4096_S344x128_0_2048 : ∀ a, (![0, 2048] : Fin 2 → Nat) a + S344x128.size a ≤ S344x4096.size a
  inb_S344x32_S344x1_0_16 : ∀ a, (![0, 16] : Fin 2 → Nat) a + S344x1.size a ≤ S344x32.size a
  packedbf16_S344x4096_S344x128_0_2048 : (Rect.unit (s := S344x4096) ![0, 2048] S344x128.size inb_S344x4096_S344x128_0_2048).PackedRows (EltTy.packing .bf16)
  inb_S344x4096_S344x128_0_2176 : ∀ a, (![0, 2176] : Fin 2 → Nat) a + S344x128.size a ≤ S344x4096.size a
  inb_S344x32_S344x1_0_17 : ∀ a, (![0, 17] : Fin 2 → Nat) a + S344x1.size a ≤ S344x32.size a
  packedbf16_S344x4096_S344x128_0_2176 : (Rect.unit (s := S344x4096) ![0, 2176] S344x128.size inb_S344x4096_S344x128_0_2176).PackedRows (EltTy.packing .bf16)
  inb_S344x4096_S344x128_0_2304 : ∀ a, (![0, 2304] : Fin 2 → Nat) a + S344x128.size a ≤ S344x4096.size a
  inb_S344x32_S344x1_0_18 : ∀ a, (![0, 18] : Fin 2 → Nat) a + S344x1.size a ≤ S344x32.size a
  packedbf16_S344x4096_S344x128_0_2304 : (Rect.unit (s := S344x4096) ![0, 2304] S344x128.size inb_S344x4096_S344x128_0_2304).PackedRows (EltTy.packing .bf16)
  inb_S344x4096_S344x128_0_2432 : ∀ a, (![0, 2432] : Fin 2 → Nat) a + S344x128.size a ≤ S344x4096.size a
  inb_S344x32_S344x1_0_19 : ∀ a, (![0, 19] : Fin 2 → Nat) a + S344x1.size a ≤ S344x32.size a
  packedbf16_S344x4096_S344x128_0_2432 : (Rect.unit (s := S344x4096) ![0, 2432] S344x128.size inb_S344x4096_S344x128_0_2432).PackedRows (EltTy.packing .bf16)
  inb_S344x4096_S344x128_0_2560 : ∀ a, (![0, 2560] : Fin 2 → Nat) a + S344x128.size a ≤ S344x4096.size a
  inb_S344x32_S344x1_0_20 : ∀ a, (![0, 20] : Fin 2 → Nat) a + S344x1.size a ≤ S344x32.size a
  packedbf16_S344x4096_S344x128_0_2560 : (Rect.unit (s := S344x4096) ![0, 2560] S344x128.size inb_S344x4096_S344x128_0_2560).PackedRows (EltTy.packing .bf16)
  inb_S344x4096_S344x128_0_2688 : ∀ a, (![0, 2688] : Fin 2 → Nat) a + S344x128.size a ≤ S344x4096.size a
  inb_S344x32_S344x1_0_21 : ∀ a, (![0, 21] : Fin 2 → Nat) a + S344x1.size a ≤ S344x32.size a
  packedbf16_S344x4096_S344x128_0_2688 : (Rect.unit (s := S344x4096) ![0, 2688] S344x128.size inb_S344x4096_S344x128_0_2688).PackedRows (EltTy.packing .bf16)
  inb_S344x4096_S344x128_0_2816 : ∀ a, (![0, 2816] : Fin 2 → Nat) a + S344x128.size a ≤ S344x4096.size a
  inb_S344x32_S344x1_0_22 : ∀ a, (![0, 22] : Fin 2 → Nat) a + S344x1.size a ≤ S344x32.size a
  packedbf16_S344x4096_S344x128_0_2816 : (Rect.unit (s := S344x4096) ![0, 2816] S344x128.size inb_S344x4096_S344x128_0_2816).PackedRows (EltTy.packing .bf16)
  inb_S344x4096_S344x128_0_2944 : ∀ a, (![0, 2944] : Fin 2 → Nat) a + S344x128.size a ≤ S344x4096.size a
  inb_S344x32_S344x1_0_23 : ∀ a, (![0, 23] : Fin 2 → Nat) a + S344x1.size a ≤ S344x32.size a
  packedbf16_S344x4096_S344x128_0_2944 : (Rect.unit (s := S344x4096) ![0, 2944] S344x128.size inb_S344x4096_S344x128_0_2944).PackedRows (EltTy.packing .bf16)
  inb_S344x4096_S344x128_0_3072 : ∀ a, (![0, 3072] : Fin 2 → Nat) a + S344x128.size a ≤ S344x4096.size a
  inb_S344x32_S344x1_0_24 : ∀ a, (![0, 24] : Fin 2 → Nat) a + S344x1.size a ≤ S344x32.size a
  packedbf16_S344x4096_S344x128_0_3072 : (Rect.unit (s := S344x4096) ![0, 3072] S344x128.size inb_S344x4096_S344x128_0_3072).PackedRows (EltTy.packing .bf16)
  inb_S344x4096_S344x128_0_3200 : ∀ a, (![0, 3200] : Fin 2 → Nat) a + S344x128.size a ≤ S344x4096.size a
  inb_S344x32_S344x1_0_25 : ∀ a, (![0, 25] : Fin 2 → Nat) a + S344x1.size a ≤ S344x32.size a
  packedbf16_S344x4096_S344x128_0_3200 : (Rect.unit (s := S344x4096) ![0, 3200] S344x128.size inb_S344x4096_S344x128_0_3200).PackedRows (EltTy.packing .bf16)
  inb_S344x4096_S344x128_0_3328 : ∀ a, (![0, 3328] : Fin 2 → Nat) a + S344x128.size a ≤ S344x4096.size a
  inb_S344x32_S344x1_0_26 : ∀ a, (![0, 26] : Fin 2 → Nat) a + S344x1.size a ≤ S344x32.size a
  packedbf16_S344x4096_S344x128_0_3328 : (Rect.unit (s := S344x4096) ![0, 3328] S344x128.size inb_S344x4096_S344x128_0_3328).PackedRows (EltTy.packing .bf16)
  inb_S344x4096_S344x128_0_3456 : ∀ a, (![0, 3456] : Fin 2 → Nat) a + S344x128.size a ≤ S344x4096.size a
  inb_S344x32_S344x1_0_27 : ∀ a, (![0, 27] : Fin 2 → Nat) a + S344x1.size a ≤ S344x32.size a
  packedbf16_S344x4096_S344x128_0_3456 : (Rect.unit (s := S344x4096) ![0, 3456] S344x128.size inb_S344x4096_S344x128_0_3456).PackedRows (EltTy.packing .bf16)
  inb_S344x4096_S344x128_0_3584 : ∀ a, (![0, 3584] : Fin 2 → Nat) a + S344x128.size a ≤ S344x4096.size a
  inb_S344x32_S344x1_0_28 : ∀ a, (![0, 28] : Fin 2 → Nat) a + S344x1.size a ≤ S344x32.size a
  packedbf16_S344x4096_S344x128_0_3584 : (Rect.unit (s := S344x4096) ![0, 3584] S344x128.size inb_S344x4096_S344x128_0_3584).PackedRows (EltTy.packing .bf16)
  inb_S344x4096_S344x128_0_3712 : ∀ a, (![0, 3712] : Fin 2 → Nat) a + S344x128.size a ≤ S344x4096.size a
  inb_S344x32_S344x1_0_29 : ∀ a, (![0, 29] : Fin 2 → Nat) a + S344x1.size a ≤ S344x32.size a
  packedbf16_S344x4096_S344x128_0_3712 : (Rect.unit (s := S344x4096) ![0, 3712] S344x128.size inb_S344x4096_S344x128_0_3712).PackedRows (EltTy.packing .bf16)
  inb_S344x4096_S344x128_0_3840 : ∀ a, (![0, 3840] : Fin 2 → Nat) a + S344x128.size a ≤ S344x4096.size a
  inb_S344x32_S344x1_0_30 : ∀ a, (![0, 30] : Fin 2 → Nat) a + S344x1.size a ≤ S344x32.size a
  packedbf16_S344x4096_S344x128_0_3840 : (Rect.unit (s := S344x4096) ![0, 3840] S344x128.size inb_S344x4096_S344x128_0_3840).PackedRows (EltTy.packing .bf16)
  inb_S344x4096_S344x128_0_3968 : ∀ a, (![0, 3968] : Fin 2 → Nat) a + S344x128.size a ≤ S344x4096.size a
  inb_S344x32_S344x1_0_31 : ∀ a, (![0, 31] : Fin 2 → Nat) a + S344x1.size a ≤ S344x32.size a
  packedbf16_S344x4096_S344x128_0_3968 : (Rect.unit (s := S344x4096) ![0, 3968] S344x128.size inb_S344x4096_S344x128_0_3968).PackedRows (EltTy.packing .bf16)
  shapeCasts_S4x2048x4096_S8192x4096 : S4x2048x4096.ShapeCasts S8192x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S344x4096.size a ≤ S11008x4096.size a
  hwx0_0 : ∀ i : grid0.Coords, EltTy.bits .f32 = 32 ∨ (Rect.block (s := S11008x4096) S344x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S344x32.size a ≤ S11008x32.size a
  hwx0_1 : ∀ i : grid0.Coords, EltTy.bits .f32 = 32 ∨ (Rect.block (s := S11008x32) S344x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S344x4096.size a ≤ S11008x4096.size a
  hwx0_2 : ∀ i : grid0.Coords, EltTy.bits .bf16 = 32 ∨ (Rect.block (s := S11008x4096) S344x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x11008.size a
  hwx1_3 : ∀ i : grid1.Coords, EltTy.bits .f32 = 32 ∨ (Rect.block (s := S8192x11008) S512x256.size (cc1_transform_3 i) (hinb1_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg1) S344x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S344x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S344x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S352256 : Shape := ⟨1, ![352256]⟩
abbrev S45088768 : Shape := ⟨1, ![45088768]⟩
abbrev S352256x128 : Shape := ⟨2, ![352256, 128]⟩
abbrev S_ : Shape := ⟨0, ![]⟩
abbrev S352256x1 : Shape := ⟨2, ![352256, 1]⟩
abbrev S4x2048x11008 : Shape := ⟨3, ![4, 2048, 11008]⟩
abbrev S1x1x11008 : Shape := ⟨3, ![1, 1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S352256, .f32⟩
  | .hbm, ⟨4, _⟩ => ⟨S45088768, .f32⟩
  | .hbm, ⟨5, _⟩ => ⟨S352256x128, .f32⟩
  | .hbm, ⟨6, _⟩ => ⟨S352256, .f32⟩
  | .hbm, ⟨7, _⟩ => ⟨S_, .f32⟩
  | .hbm, ⟨8, _⟩ => ⟨S352256, .f32⟩
  | .hbm, ⟨9, _⟩ => ⟨S352256, .f32⟩
  | .hbm, ⟨10, _⟩ => ⟨S352256x1, .f32⟩
  | .hbm, ⟨11, _⟩ => ⟨S352256x128, .f32⟩
  | .hbm, ⟨12, _⟩ => ⟨S352256x128, .f32⟩
  | .hbm, ⟨13, _⟩ => ⟨S352256x128, .f32⟩
  | .hbm, ⟨14, _⟩ => ⟨S352256x128, .f32⟩
  | .hbm, ⟨15, _⟩ => ⟨S_, .f32⟩
  | .hbm, ⟨16, _⟩ => ⟨S352256x128, .f32⟩
  | .hbm, ⟨17, _⟩ => ⟨S352256x128, .i1⟩
  | .hbm, ⟨18, _⟩ => ⟨S_, .f32⟩
  | .hbm, ⟨19, _⟩ => ⟨S352256x128, .f32⟩
  | .hbm, ⟨20, _⟩ => ⟨S352256x128, .f32⟩
  | .hbm, ⟨21, _⟩ => ⟨S352256x128, .f32⟩
  | .hbm, ⟨22, _⟩ => ⟨S352256x128, .f32⟩
  | .hbm, ⟨23, _⟩ => ⟨S352256x128, .f32⟩
  | .hbm, ⟨24, _⟩ => ⟨S352256x128, .f32⟩
  | .hbm, ⟨25, _⟩ => ⟨S45088768, .f32⟩
  | .hbm, ⟨26, _⟩ => ⟨S11008x4096, .f32⟩
  | .hbm, ⟨27, _⟩ => ⟨S4x2048x11008, .f32⟩
  | .hbm, ⟨28, _⟩ => ⟨S1x1x11008, .f32⟩
  | .hbm, ⟨29, _⟩ => ⟨S4x2048x11008, .f32⟩
  | .hbm, ⟨30, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S11008x4096_S45088768 : S11008x4096.ShapeCasts S45088768
  shapeCasts_S45088768_S352256x128 : S45088768.ShapeCasts S352256x128
  bcast_S_S352256 : S_.BroadcastsInDim S352256 (![] : Fin 0 → Fin S352256.rank)
  bcast_S352256_S352256x1_0 : S352256.BroadcastsInDim S352256x1 (![0] : Fin 1 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S45088768 : S352256x128.ShapeCasts S45088768
  shapeCasts_S45088768_S11008x4096 : S45088768.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The mathematics both programs compute, stated once, over the extended reals and independent of either program.

  A weight matrix w : 11008 × 4096 is binarised group by group: the flat (row-major) weight is cut into groups
  of 128 consecutive entries, group g carries one scale s g, clamped from below as max |s g| ε, and every
  entry of the group becomes ± max |s g| ε by the sign of the entry (a zero entry counts as positive). Since
  128 divides 4096, entry (o, i) lies in group 32·o + ⌊i/128⌋. The result is the linear layer
  y[b, t, o] = ∑ᵢ x[b, t, i] · q[o, i] + bias[o].

  Two scalar forms of the quantised entry are shown equal to `qw`:
  * the select chain `kform` (absolute value against zero, a strict comparison against zero for the sign,
    then the zero test) — equal for EVERY extended real;
  * the straight-through form `rform`: with S = max |s| ε and n = w / S, the value
    ((h + tanh n) − tanh n) · S, where h is sign n with 0 replaced by 1. For real w and s the clamp
    S is a positive real, so n is real, tanh n is real and cancels, and sign (w / S) = sign w.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx
open scoped BigOperators

/-- The clamp's lower bound ε: the binary32 value nearest 1e-8. -/
def eps : EReal := Ideal.ofBits .f32 0x322BCC77#32

/-- The binary sign: -1 below zero, 1 at zero and above. -/
def sgn (w : EReal) : EReal := if w < 0 then -1 else 1

/-- A group's clamped scale max |s| ε. -/
def gscale (s : EReal) : EReal := max (max s (-s)) eps

/-- The quantised weight entry. -/
def qw (w s : EReal) : EReal := sgn w * gscale s

/-- ε is a positive real: 11258999 · 2⁻⁵⁰. -/
theorem eps_eq : eps = (((11258999 : ℝ) * (2 : ℝ) ^ (-50 : ℤ) : ℝ) : EReal) := by
  unfold eps
  simp [Ideal.ofBits, Ideal.ieee, -EReal.coe_mul]

theorem eps_pos : ∃ e : ℝ, 0 < e ∧ eps = (e : EReal) :=
  ⟨_, by positivity, eps_eq⟩

/-- A real scale clamps to a positive real. -/
theorem gscale_coe (r : ℝ) : ∃ σ : ℝ, 0 < σ ∧ gscale (r : EReal) = (σ : EReal) := by
  obtain ⟨e, he, hε⟩ := eps_pos
  refine ⟨max (max r (-r)) e, lt_of_lt_of_le he (le_max_right _ _), ?_⟩
  unfold gscale
  rw [hε]
  norm_cast

/-! ## The select chain -/

/-- The entry's sign as a select chain: where |w| > 0 it is -1 or 1 by w < 0, elsewhere w itself
    (zero); then a zero is replaced by 1. -/
def kform (w : EReal) : EReal :=
  Scalar.select (Ideal.cmp .oeq
      (Scalar.select (Ideal.cmp .ogt (max w (-w)) 0) (Scalar.select (Ideal.cmp .olt w 0) (-1) 1) w) 0) 1
    (Scalar.select (Ideal.cmp .ogt (max w (-w)) 0) (Scalar.select (Ideal.cmp .olt w 0) (-1) 1) w)

theorem kform_eq (w : EReal) : kform w = sgn w := by
  unfold kform sgn
  rcases lt_trichotomy w 0 with h | h | h
  · have habs : (0 : EReal) < max w (-w) := lt_max_of_lt_right (by simpa using h)
    simp [Ideal.cmp, Scalar.select, h, habs]
  · subst h
    simp [Ideal.cmp, Scalar.select]
  · have habs : (0 : EReal) < max w (-w) := lt_max_of_lt_left h
    have hn : ¬ w < 0 := not_lt.mpr h.le
    simp [Ideal.cmp, Scalar.select, hn, habs]

/-! ## The straight-through form -/

/-- A real added and taken away again leaves a real unchanged, inside the extended reals. -/
theorem coe_add_sub_cancel (a t : ℝ) : ((a : EReal) + (t : EReal)) - (t : EReal) = (a : EReal) := by
  rw [← EReal.coe_add, ← EReal.coe_sub]
  exact congrArg _ (by ring)

/-- The straight-through form of the quantised entry. -/
def rform (w s : EReal) : EReal :=
  ((Scalar.select (Ideal.cmp .oeq (Ideal.sign (Ideal.div w (gscale s))) 0) 1 (Ideal.sign (Ideal.div w (gscale s)))
      + Ideal.tanh (Ideal.div w (gscale s))) - Ideal.tanh (Ideal.div w (gscale s))) * gscale s

theorem rform_eq (v r : ℝ) : rform (v : EReal) (r : EReal) = qw (v : EReal) (r : EReal) := by
  obtain ⟨σ, hσ, hS⟩ := gscale_coe r
  unfold rform qw
  rw [hS]
  have hσ0 : ((σ : ℝ) : EReal) ≠ 0 := by exact_mod_cast hσ.ne'
  have hdiv : Ideal.div (v : EReal) (σ : EReal) = ((v / σ : ℝ) : EReal) := by
    unfold Ideal.div
    rw [if_neg hσ0, ← EReal.coe_inv, ← EReal.coe_mul, div_eq_mul_inv]
  rw [hdiv]
  have htanh : Ideal.tanh ((v / σ : ℝ) : EReal) = ((Real.tanh (v / σ) : ℝ) : EReal) := rfl
  rw [htanh, Ideal.sign_coe]
  congr 1
  unfold sgn
  rcases lt_trichotomy v 0 with h | h | h
  · have hq : v / σ < 0 := div_neg_of_neg_of_pos h hσ
    have hv : ((v : ℝ) : EReal) < 0 := by exact_mod_cast h
    rw [sign_neg hq, if_pos hv]
    simp [Ideal.cmp, Scalar.select]
    have hc := coe_add_sub_cancel (-1) (Real.tanh (v / σ))
    rw [EReal.coe_neg, EReal.coe_one] at hc
    exact hc
  · subst h
    simp [Ideal.cmp, Scalar.select]
  · have hq : 0 < v / σ := div_pos h hσ
    have hv : ¬ ((v : ℝ) : EReal) < 0 := by exact_mod_cast not_lt.mpr h.le
    rw [sign_pos hq, if_neg hv]
    simp [Ideal.cmp, Scalar.select]
    have hc := coe_add_sub_cancel 1 (Real.tanh (v / σ))
    rw [EReal.coe_one] at hc
    exact hc

/-! ## The arrays -/

abbrev SX : Shape := ⟨3, ![4, 2048, 4096]⟩
abbrev SW : Shape := ⟨2, ![11008, 4096]⟩
abbrev SB : Shape := ⟨1, ![11008]⟩
abbrev SS : Shape := ⟨1, ![352256]⟩
abbrev SY : Shape := ⟨3, ![4, 2048, 11008]⟩

/-- The group of weight entry (o, i): 32·o + ⌊i/128⌋. -/
def grp (o : Fin 11008) (i : Fin 4096) : Fin 352256 :=
  ⟨o.val * 32 + i.val / 128, by have := o.isLt; have := i.isLt; omega⟩

/-- The quantised weight matrix, entry (o, i). -/
def Wq (w : SW.Idx → EReal) (s : SS.Idx → EReal) (o : Fin 11008) (i : Fin 4096) : EReal :=
  qw (w (ix2 o i)) (s (ix1 (grp o i)))

/-- The linear layer at (b, t, o). -/
def Yat (x : SX.Idx → EReal) (w : SW.Idx → EReal) (bias : SB.Idx → EReal) (s : SS.Idx → EReal)
    (b : Fin 4) (t : Fin 2048) (o : Fin 11008) : EReal :=
  (∑ k : Fin 4096, x (ix3 b t k) * Wq w s o k) + bias (ix1 o)

/-- The whole result. -/
def Y (x : SX.Idx → EReal) (w : SW.Idx → EReal) (bias : SB.Idx → EReal) (s : SS.Idx → EReal) : SY.Idx → EReal :=
  fun j => Yat x w bias s (j 0) (j 1) (j 2)

end Cert.Spec

end
-- ==== Proof.QuantBlock.lean ====
/-
  One grid point of the quantisation: the staging buffer the body leaves, read at an index.

  The body cuts its 344 × 4096 weight block into 32 column groups of width 128 and writes group g of the output
  as (sign of the weight entry, zero counted positive) · max |scale[row, g]| ε. Read at row p and column j the
  buffer therefore holds the quantised entry of the weight at (p, j) with the scale of column group ⌊j/128⌋.

  The 32 stores compute one and the same cell, each over its own loads; the cell is read once at a local index
  (row p, lane l), each store is then that cell under its rectangle, and the 32 rectangles tile the buffer.
-/
import proofs.«179462_j65506841199020_1_alg».proof.Proof.Gen.KernelIdeal.Frame
import proofs.«179462_j65506841199020_1_alg».proof.Proof.Spec
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Quant

open Cert.KernelIdeal Cert.KernelIdeal.Gen Idealize.ShloMosaic Idealize.ShloMosaic.TcCoe Idealize.ShloMosaic.ValueIdx

/-- The column group of a column: ⌊j/128⌋. -/
def colGrp (j : Fin 4096) : Fin 32 := ⟨j.val / 128, by have := j.isLt; omega⟩

/-- The binary32 word 0xBF800000 is -1. -/
theorem ofBits_neg_one_f32 : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- A column broadcast along the 128 lanes reads the column's entry of the same row. -/
theorem colBroadcast_apply (v : S344x1.Idx → EReal) (p : Fin 344) (l : Fin 128) :
    broadcastTo S344x128 v broadcasts_S344x1_S344x128 (ix2 p l) = v (ix2 p 0) := by
  refine broadcastTo_apply v _ (ix2 p l) (ix2 p 0) ?_
  intro a
  match a with
  | ⟨0, _⟩ => rfl
  | ⟨1, _⟩ => rfl

/-- The whole cell of a column group at a local index: the binary sign of the weight entry times the clamped scale of
    its row. -/
theorem groupCell_apply (a : Vec Ideal S344x128 .f32) (s : Vec Ideal S344x1 .f32) (p : Fin 344) (l : Fin 128) :
    k0_pay2 (F := Ideal) a s (ix2 p l) = Cert.Spec.qw (a (ix2 p l)) (s (ix2 p 0)) := by
  unfold k0_pay2
  simp only [truncf_apply, mulf_apply, select_apply, cmpf_apply, broadcast_apply, constant_apply, colBroadcast_apply,
    maximumf_apply, shapeCast_self, absf, Ideal.absf_def, Ideal.cmpf_def, Scalar.ofBits, Ideal.ofBits_def,
    Ideal.ofBits_zero_f32, Ideal.ofBits_one_f32, ofBits_neg_one_f32]
  unfold Cert.Spec.qw
  rw [← Cert.Spec.kform_eq]
  rfl

/-- The quantised entry at an index of the 344 × 4096 block: the weight entry there with the scale of its row and
    column group. -/
def cellAt (x0 : Vec Ideal S344x4096 .f32) (x1 : Vec Ideal S344x32 .f32) (y : S344x4096.Idx) : EReal :=
  Cert.Spec.qw (x0 y) (x1 (ix2 (y 0) (colGrp (y 1))))

/-- A store of the whole cell of column group g, computed from the loads of the weight's columns 128g … 128g + 127
    and of the scale's column g, agrees with `cellAt` under the store's rectangle. -/
theorem groupStore_apply (x0 : Vec Ideal S344x4096 .f32) (x1 : Vec Ideal S344x32 .f32) (o g : Nat) (ho : o = 128 * g)
    (inbw : ∀ a, (![0, o] : Fin 2 → Nat) a + S344x128.size a ≤ S344x4096.size a)
    (inbs : ∀ a, (![0, g] : Fin 2 → Nat) a + S344x1.size a ≤ S344x32.size a)
    (pay : Vec Ideal S344x128 .bf16)
    (hpay : pay = k0_pay2 (View.ld x0 (Rect.unit (s := S344x4096) ![0, o] S344x128.size inbw))
      (View.ld x1 (Rect.unit (s := S344x32) ![0, g] S344x1.size inbs)))
    (x : S344x128.Idx) :
    pay x = cellAt x0 x1 ((Rect.unit (s := S344x4096) ![0, o] S344x128.size inbw).emb x) := by
  subst hpay
  rw [eq_ix2 x]
  refine (groupCell_apply _ _ (x 0) (x 1)).trans ?_
  unfold cellAt
  have hl : (x 1).val < 128 := (x 1).isLt
  refine congrArg (Cert.Spec.qw _) (congrArg x1 (Shape.idx_ext₂ ?_ ?_))
  · show 0 + 1 * (x 0).val = 0 + 1 * (x 0).val
    rfl
  · show g + 1 * 0 = (o + 1 * (x 1).val) / 128
    omega

/-- The body's output buffer at (p, j): the quantised entry of the weight block at (p, j), scaled by the
    scale block's entry at (p, ⌊j/128⌋). -/
theorem out0_2_apply (x0 : Vec Ideal S344x4096 .f32) (x1 : Vec Ideal S344x32 .f32) (p : Fin 344) (j : Fin 4096) :
    out0_2 (F := Ideal) x0 x1 (ix2 p j) = Cert.Spec.qw (x0 (ix2 p j)) (x1 (ix2 p (colGrp j))) := by
  unfold out0_2
  -- each of the 32 stores' payloads is, by unfolding, the whole cell over its own loads
  refine (View.canon_apply_of_pieces (cellAt x0 x1) _ ?_ (ix2 p j) (cover0_2 _ _ _ _ _ _ _ _ _ _ _ _ _ _ _ _ _ _ _ _ _ _ _ _ _ _ _ _ _ _ _ _ (ix2 p j))).trans rfl
  refine List.forall_mem_cons.2 ⟨groupStore_apply x0 x1 3968 31 rfl _ _ _ rfl, ?_⟩
  refine List.forall_mem_cons.2 ⟨groupStore_apply x0 x1 3840 30 rfl _ _ _ rfl, ?_⟩
  refine List.forall_mem_cons.2 ⟨groupStore_apply x0 x1 3712 29 rfl _ _ _ rfl, ?_⟩
  refine List.forall_mem_cons.2 ⟨groupStore_apply x0 x1 3584 28 rfl _ _ _ rfl, ?_⟩
  refine List.forall_mem_cons.2 ⟨groupStore_apply x0 x1 3456 27 rfl _ _ _ rfl, ?_⟩
  refine List.forall_mem_cons.2 ⟨groupStore_apply x0 x1 3328 26 rfl _ _ _ rfl, ?_⟩
  refine List.forall_mem_cons.2 ⟨groupStore_apply x0 x1 3200 25 rfl _ _ _ rfl, ?_⟩
  refine List.forall_mem_cons.2 ⟨groupStore_apply x0 x1 3072 24 rfl _ _ _ rfl, ?_⟩
  refine List.forall_mem_cons.2 ⟨groupStore_apply x0 x1 2944 23 rfl _ _ _ rfl, ?_⟩
  refine List.forall_mem_cons.2 ⟨groupStore_apply x0 x1 2816 22 rfl _ _ _ rfl, ?_⟩
  refine List.forall_mem_cons.2 ⟨groupStore_apply x0 x1 2688 21 rfl _ _ _ rfl, ?_⟩
  refine List.forall_mem_cons.2 ⟨groupStore_apply x0 x1 2560 20 rfl _ _ _ rfl, ?_⟩
  refine List.forall_mem_cons.2 ⟨groupStore_apply x0 x1 2432 19 rfl _ _ _ rfl, ?_⟩
  refine List.forall_mem_cons.2 ⟨groupStore_apply x0 x1 2304 18 rfl _ _ _ rfl, ?_⟩
  refine List.forall_mem_cons.2 ⟨groupStore_apply x0 x1 2176 17 rfl _ _ _ rfl, ?_⟩
  refine List.forall_mem_cons.2 ⟨groupStore_apply x0 x1 2048 16 rfl _ _ _ rfl, ?_⟩
  refine List.forall_mem_cons.2 ⟨groupStore_apply x0 x1 1920 15 rfl _ _ _ rfl, ?_⟩
  refine List.forall_mem_cons.2 ⟨groupStore_apply x0 x1 1792 14 rfl _ _ _ rfl, ?_⟩
  refine List.forall_mem_cons.2 ⟨groupStore_apply x0 x1 1664 13 rfl _ _ _ rfl, ?_⟩
  refine List.forall_mem_cons.2 ⟨groupStore_apply x0 x1 1536 12 rfl _ _ _ rfl, ?_⟩
  refine List.forall_mem_cons.2 ⟨groupStore_apply x0 x1 1408 11 rfl _ _ _ rfl, ?_⟩
  refine List.forall_mem_cons.2 ⟨groupStore_apply x0 x1 1280 10 rfl _ _ _ rfl, ?_⟩
  refine List.forall_mem_cons.2 ⟨groupStore_apply x0 x1 1152 9 rfl _ _ _ rfl, ?_⟩
  refine List.forall_mem_cons.2 ⟨groupStore_apply x0 x1 1024 8 rfl _ _ _ rfl, ?_⟩
  refine List.forall_mem_cons.2 ⟨groupStore_apply x0 x1 896 7 rfl _ _ _ rfl, ?_⟩
  refine List.forall_mem_cons.2 ⟨groupStore_apply x0 x1 768 6 rfl _ _ _ rfl, ?_⟩
  refine List.forall_mem_cons.2 ⟨groupStore_apply x0 x1 640 5 rfl _ _ _ rfl, ?_⟩
  refine List.forall_mem_cons.2 ⟨groupStore_apply x0 x1 512 4 rfl _ _ _ rfl, ?_⟩
  refine List.forall_mem_cons.2 ⟨groupStore_apply x0 x1 384 3 rfl _ _ _ rfl, ?_⟩
  refine List.forall_mem_cons.2 ⟨groupStore_apply x0 x1 256 2 rfl _ _ _ rfl, ?_⟩
  refine List.forall_mem_cons.2 ⟨groupStore_apply x0 x1 128 1 rfl _ _ _ rfl, ?_⟩
  refine List.forall_mem_cons.2 ⟨groupStore_apply x0 x1 0 0 rfl _ _ _ rfl, ?_⟩
  exact fun _ h => absurd h List.not_mem_nil

end Cert.KernelIdeal.Quant

end
-- ==== Proof.QuantArray.lean ====
/-
  The quantisation region's whole output array.

  Grid point t of the 32 writes back rows 344·t … 344·t + 343 of the output, each point's block being the
  quantised entries of the same rows of the weight with the same rows of the 11008 × 32 scale matrix. The
  32 blocks tile the 11008 rows, so after the region the array is one function of the weight and scale
  arrays as the region found them: entry (o, i) is the quantised weight (o, i) at scale (o, ⌊i/128⌋).
-/
import proofs.«179462_j65506841199020_1_alg».proof.Proof.QuantBlock

set_option maxRecDepth 16384

noncomputable section

namespace Cert.KernelIdeal.Quant

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-- The quantised weight matrix as a function of the weight array and the 11008 × 32 scale matrix. -/
def Q0 (w : (⟨S11008x4096, .f32⟩ : BufTy).Contents (Elt Ideal)) (s : (⟨S11008x32, .f32⟩ : BufTy).Contents (Elt Ideal)) :
    (⟨S11008x4096, .bf16⟩ : BufTy).Contents (Elt Ideal) :=
  fun i => Cert.Spec.qw (w i) (s (ix2 (i 0) (colGrp (i 1))))

/-- The three index maps, decided once over the 32 grid points: the block row is the point's number and the
    block column is 0, for the weight, the scale matrix and the output alike. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every one of the 32 row blocks is some grid point's. -/
theorem point_of_rowBlock : ∀ q : Fin 32, ∃ t : Fin cfg0.N, t.val = q.val :=
  (by decide +kernel : ∀ q : Fin 32, ∃ t : Fin grid0.N, t.val = q.val)

/-- The weight block of point t, read at (p, j), is the weight array at row 344·t + p, column j. -/
theorem weightBlock_apply (c : Dev nD) (t : Fin cfg0.N) (p : Fin 344) (j : Fin 4096) (k : S11008x4096.Idx)
    (hk0 : (k 0).val = t.val * 344 + p.val) (hk1 : (k 1).val = j.val) :
    (iblk0 (F := Ideal) V c 0 t : Vec Ideal S344x4096 .f32) (ix2 p j)
      = (V c main_arg1 : S11008x4096.Idx → Elt Ideal .f32) k := by
  obtain ⟨e0, e1, -⟩ := index_facts t
  unfold iblk0
  rw [View.read_apply]
  show V c main_arg1 _ = V c main_arg1 _
  congr 1
  funext a
  apply Fin.ext
  match a with
  | ⟨0, _⟩ => show win0_0.index t (0 : Fin 2) * 344 + 1 * p.val = (k 0).val; omega
  | ⟨1, _⟩ => show win0_0.index t (1 : Fin 2) * 4096 + 1 * j.val = (k 1).val; omega

/-- The scale block of point t, read at (p, g), is the scale matrix at row 344·t + p, column g. -/
theorem scaleBlock_apply (c : Dev nD) (t : Fin cfg0.N) (p : Fin 344) (g : Fin 32) (k : S11008x32.Idx)
    (hk0 : (k 0).val = t.val * 344 + p.val) (hk1 : (k 1).val = g.val) :
    (iblk0 (F := Ideal) V c 1 t : Vec Ideal S344x32 .f32) (ix2 p g)
      = (V c main_v0 : S11008x32.Idx → Elt Ideal .f32) k := by
  obtain ⟨-, -, e0, e1, -⟩ := index_facts t
  unfold iblk0
  rw [View.read_apply]
  show V c main_v0 _ = V c main_v0 _
  congr 1
  funext a
  apply Fin.ext
  match a with
  | ⟨0, _⟩ => show win0_1.index t (0 : Fin 2) * 344 + 1 * p.val = (k 0).val; omega
  | ⟨1, _⟩ => show win0_1.index t (1 : Fin 2) * 32 + 1 * g.val = (k 1).val; omega

/-- What grid point t writes back is its block of the quantised weight matrix: rows 344·t … 344·t + 343 of the
    matrix whose entry (o, i) is the weight (o, i) quantised at scale (o, ⌊i/128⌋). -/
theorem flushed_eq (c : Dev nD) (t : Fin cfg0.N) :
    (dat0 (F := Ideal) V c).flushed 2 t
      = ((cfg0.win 2).blk t).view.read (Elt Ideal) (Q0 (V c main_arg1) (V c main_v0)) := by
  show (cfg0.win 2).cut (grid0.coords t) ((dat0 (F := Ideal) V c).after 2 t) = _
  rw [after0_2]
  funext y
  have hy0 : (y 0).val < 344 := (y 0).isLt
  have hy1 : (y 1).val < 4096 := (y 1).isLt
  obtain ⟨-, -, -, -, e0, e1⟩ := index_facts t
  have hx : (cfg0.win 2).xinj (grid0.coords t) y = ix2 (⟨(y 0).val, hy0⟩ : Fin 344) (⟨(y 1).val, hy1⟩ : Fin 4096) := by
    funext a
    match a with
    | ⟨0, _⟩ => rfl
    | ⟨1, _⟩ => rfl
  show out0_2 (F := Ideal) (iblk0 V c 0 t) (iblk0 V c 1 t) ((cfg0.win 2).xinj (grid0.coords t) y)
    = Q0 (V c main_arg1) (V c main_v0) (((cfg0.win 2).blk t).view.emb y)
  rw [hx, out0_2_apply]
  have h0 : ((((cfg0.win 2).blk t).view.emb y) 0).val = t.val * 344 + (y 0).val := by
    show win0_2.index t (0 : Fin 2) * 344 + 1 * (y 0).val = _
    omega
  have h1 : ((((cfg0.win 2).blk t).view.emb y) 1).val = (y 1).val := by
    show win0_2.index t (1 : Fin 2) * 4096 + 1 * (y 1).val = _
    omega
  rw [weightBlock_apply V c t ⟨(y 0).val, hy0⟩ ⟨(y 1).val, hy1⟩ (((cfg0.win 2).blk t).view.emb y) h0 h1,
    scaleBlock_apply V c t ⟨(y 0).val, hy0⟩ (colGrp ⟨(y 1).val, hy1⟩) (ix2 ((((cfg0.win 2).blk t).view.emb y) 0) (colGrp ((((cfg0.win 2).blk t).view.emb y) 1))) h0
      (by show ((((cfg0.win 2).blk t).view.emb y) 1).val / 128 = (y 1).val / 128; rw [h1])]
  rfl

/-- An index of the output array is in point t's block iff each coordinate is in the block's range on its axis. -/
theorem mem_outBlock (t : Fin cfg0.N) (i : S11008x4096.Idx) :
    i ∈ ((cfg0.win 2).blk t).view.set ↔ ∀ a : Fin 2, win0_2.index t a * S344x4096.size a ≤ (i a).val
      ∧ (i a).val < win0_2.index t a * S344x4096.size a + S344x4096.size a := by
  show i ∈ ((View.whole main_v1).slice (win0_2.rect t)).set ↔ _
  rw [View.set_slice_whole, Rect.mem_set_unit]
  exact Iff.rfl

/-- The 32 row blocks tile the 11008 rows: row r lies in the block of point ⌊r/344⌋. -/
theorem rows_cover (i : S11008x4096.Idx) :
    ∃ t : Fin cfg0.N, (cfg0.win 2).flush t = true ∧ i ∈ ((cfg0.win 2).blk t).view.set := by
  have hi0 : (i 0).val < 11008 := (i 0).isLt
  have hi1 : (i 1).val < 4096 := (i 1).isLt
  obtain ⟨t, ht⟩ := point_of_rowBlock ⟨(i 0).val / 344, by omega⟩
  have ht' : t.val = (i 0).val / 344 := ht
  obtain ⟨-, -, -, -, e0, e1⟩ := index_facts t
  refine ⟨t, flush0_2 t, ?_⟩
  rw [mem_outBlock]
  intro a
  match a with
  | ⟨0, _⟩ =>
    show win0_2.index t (0 : Fin 2) * 344 ≤ (i 0).val ∧ (i 0).val < win0_2.index t (0 : Fin 2) * 344 + 344
    omega
  | ⟨1, _⟩ =>
    show win0_2.index t (1 : Fin 2) * 4096 ≤ (i 1).val ∧ (i 1).val < win0_2.index t (1 : Fin 2) * 4096 + 4096
    omega

/-- After the region its output array holds the quantised weight matrix of the arrays it was entered with. -/
theorem arr0 (c : Dev nD) :
    (dat0 (F := Ideal) V c).arrAt 2 cfg0.N = Q0 (V c main_arg1) (V c main_v0) :=
  (dat0 (F := Ideal) V c).arrAt_eq_of_cover 2 (Q0 (V c main_arg1) (V c main_v0)) (fun t _ => flushed_eq V c t) rows_cover

end Cert.KernelIdeal.Quant

end
-- ==== Proof.MatmulBlock.lean ====
/-
  One grid point of the linear layer: the staging buffer the body leaves, read at an index.

  The body contracts its 512 × 4096 block of x with its 256 × 4096 block of quantised weights along the
  second axis of both, into a zero accumulator, and adds the 1 × 256 bias block along rows:
  entry (p, q) is ∑ₖ x[p, k] · wq[q, k] + bias[0, q].
-/
import proofs.«179462_j65506841199020_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.ShloMosaic.ValueIdx
open scoped BigOperators

/-- The left operand's index at output (p, q) and contraction index k: its row is the output's row. -/
theorem lhs_blockDot_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- … and its column is the contraction index. -/
theorem lhs_blockDot_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's index: its row is the output's column. -/
theorem rhs_blockDot_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- … and its column is the contraction index. -/
theorem rhs_blockDot_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The block product into the zero accumulator at (p, q): ∑ₖ a[p, k] · b[q, k]. -/
theorem blockDot_apply (a : FVec Ideal S512x4096 .bf16) (b : FVec Ideal S256x4096 .bf16) (p : Fin 512) (q : Fin 256) :
    FloatOps.matmul dot_S512x4096_S256x4096_S512x256_1_1_0_0_n_n none a b (constant (F := Ideal) S512x256 .f32 0x00000000#32) (ix2 p q)
      = ∑ k : Fin 4096, (a (ix2 p k) : EReal) * (b (ix2 q k) : EReal) := by
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k := funext fun a => Fin.ext (by
    match a with
    | ⟨0, _⟩ => exact lhs_blockDot_0 _ _
    | ⟨1, _⟩ => exact (lhs_blockDot_1 _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k := funext fun a => Fin.ext (by
    match a with
    | ⟨0, _⟩ => exact rhs_blockDot_0 _ _
    | ⟨1, _⟩ => exact (rhs_blockDot_1 _ _).trans hk)
  rw [el, er]

/-- The bias row broadcast along the 512 rows, at (p, q): the row's entry q. -/
theorem biasRows_apply (c : FVec Ideal S1x256 .f32) (p : Fin 512) (q : Fin 256) :
    broadcastTo S512x256 c broadcasts_S1x256_S512x256 (ix2 p q) = c (ix2 (0 : Fin 1) q) :=
  broadcastTo_apply c broadcasts_S1x256_S512x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-- The body's output buffer at (p, q). -/
theorem out1_3_apply (x0 : Vec Ideal S512x4096 .f32) (x1 : Vec Ideal S256x4096 .bf16) (x2 : Vec Ideal S1x256 .f32)
    (p : Fin 512) (q : Fin 256) :
    out1_3 (F := Ideal) x0 x1 x2 (ix2 p q)
      = (∑ k : Fin 4096, (x0 (ix2 p k) : EReal) * (x1 (ix2 q k) : EReal)) + (x2 (ix2 (0 : Fin 1) q) : EReal) := by
  have hz : (![0, 0] : Fin 2 → Nat) = fun _ => 0 := by funext a; fin_cases a <;> rfl
  unfold out1_3
  rw [View.canon_unit_zero hz]
  simp only [View.ld_unit_zero (S := S512x4096) hz, View.ld_unit_zero (S := S256x4096) hz, View.ld_unit_zero (S := S1x256) hz]
  unfold k1_pay1
  simp only [shapeCast_self]
  rw [addf_apply, biasRows_apply]
  simp only [matmul]
  rw [blockDot_apply]
  rfl

end Cert.KernelIdeal.Linear

end
-- ==== Proof.MatmulArray.lean ====
/-
  The linear layer region's whole output array.

  Grid point (a, b) of the 16 × 43 writes back the 512 × 256 block at rows 512·a …, columns 256·b … of the
  8192 × 11008 output: the contraction of rows 512·a … of x with rows 256·b … of the quantised weights, plus
  columns 256·b … of the bias row. The blocks tile the output, so after the region the array is one function
  of the three arrays as the region found them: entry (r, o) is ∑ₖ x[r, k] · wq[o, k] + bias[0, o].
-/
import proofs.«179462_j65506841199020_1_alg».proof.Proof.MatmulBlock

set_option maxRecDepth 16384

noncomputable section

namespace Cert.KernelIdeal.Linear

open Cert.KernelIdeal Cert.KernelIdeal.Gen Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-- The linear layer on flattened rows, as a function of x (8192 × 4096), the quantised weights and the bias row. -/
def Y1 (x : (⟨S8192x4096, .f32⟩ : BufTy).Contents (Elt Ideal)) (wq : (⟨S11008x4096, .bf16⟩ : BufTy).Contents (Elt Ideal))
    (b : (⟨S1x11008, .f32⟩ : BufTy).Contents (Elt Ideal)) : (⟨S8192x11008, .f32⟩ : BufTy).Contents (Elt Ideal) :=
  fun i => (∑ k : Fin 4096, (x (ix2 (i 0) k) : EReal) * (wq (ix2 (i 1) k) : EReal)) + (b (ix2 (0 : Fin 1) (i 1)) : EReal)

/-! ## The index maps over the grid -/

/-- The printed index maps, decided over the grid: the block of x moves with the output block's row index, the
    blocks of the quantised weights and of the bias row with its column index, every other block index is zero,
    and the output's block index at point t is (t / 43, t % 43). -/
theorem index_facts : ∀ t : Fin cfg1.N,
    win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) = t.val / 43
    ∧ win1_3.index t (1 : Fin 2) = t.val % 43 :=
  (by decide +kernel : ∀ t : Fin grid1.N, _)

/-- The grid has 16 · 43 points. -/
theorem points_eq : cfg1.N = 688 := by decide +kernel

/-- Every block (a, b) of the 16 × 43 tiling is some point's output block: point 43·a + b's. -/
theorem index_onto (q0 : Fin 16) (q1 : Fin 43) :
    ∃ t : Fin cfg1.N, win1_3.index t (0 : Fin 2) = q0.val ∧ win1_3.index t (1 : Fin 2) = q1.val := by
  have h0 := q0.isLt
  have h1 := q1.isLt
  refine ⟨⟨q0.val * 43 + q1.val, by rw [points_eq]; omega⟩, ?_⟩
  obtain ⟨-, -, -, -, -, -, e6, e7⟩ := index_facts ⟨q0.val * 43 + q1.val, by rw [points_eq]; omega⟩
  constructor
  · rw [e6]; show (q0.val * 43 + q1.val) / 43 = q0.val; omega
  · rw [e7]; show (q0.val * 43 + q1.val) % 43 = q1.val; omega

/-! ## The input blocks as parts of their arrays -/

/-- The block of x at a point is the 512 rows of x beside the output block's rows. -/
theorem xblk_apply (c : Dev nD) (t : Fin cfg1.N) (p : Fin 512) (k : Fin 4096) (r : Fin 8192)
    (hr : r.val = win1_3.index t (0 : Fin 2) * 512 + p.val) :
    (iblk1 (F := Ideal) V c 0 t : Vec Ideal S512x4096 .f32) (ix2 p k)
      = (V c main_v2 : S8192x4096.Idx → Elt Ideal .f32) (ix2 r k) := by
  obtain ⟨e0, e1, -⟩ := index_facts t
  unfold iblk1
  rw [View.read_apply]
  show V c main_v2 _ = V c main_v2 _
  congr 1
  funext a
  apply Fin.ext
  match a with
  | ⟨0, _⟩ => show win1_0.index t (0 : Fin 2) * 512 + 1 * p.val = r.val; omega
  | ⟨1, _⟩ => show win1_0.index t (1 : Fin 2) * 4096 + 1 * k.val = k.val; omega

/-- The block of quantised weights at a point is the 256 rows of the weights above the output block's columns. -/
theorem wblk_apply (c : Dev nD) (t : Fin cfg1.N) (q : Fin 256) (k : Fin 4096) (o : Fin 11008)
    (ho : o.val = win1_3.index t (1 : Fin 2) * 256 + q.val) :
    (iblk1 (F := Ideal) V c 1 t : Vec Ideal S256x4096 .bf16) (ix2 q k)
      = (V c main_v1 : S11008x4096.Idx → Elt Ideal .bf16) (ix2 o k) := by
  obtain ⟨-, -, e2, e3, -⟩ := index_facts t
  unfold iblk1
  rw [View.read_apply]
  show V c main_v1 _ = V c main_v1 _
  congr 1
  funext a
  apply Fin.ext
  match a with
  | ⟨0, _⟩ => show win1_1.index t (0 : Fin 2) * 256 + 1 * q.val = o.val; omega
  | ⟨1, _⟩ => show win1_1.index t (1 : Fin 2) * 4096 + 1 * k.val = k.val; omega

/-- The block of the bias row at a point is the 256 columns of the bias above the output block's columns. -/
theorem bblk_apply (c : Dev nD) (t : Fin cfg1.N) (q : Fin 256) (o : Fin 11008)
    (ho : o.val = win1_3.index t (1 : Fin 2) * 256 + q.val) :
    (iblk1 (F := Ideal) V c 2 t : Vec Ideal S1x256 .f32) (ix2 (0 : Fin 1) q)
      = (V c main_v3 : S1x11008.Idx → Elt Ideal .f32) (ix2 (0 : Fin 1) o) := by
  obtain ⟨-, -, -, -, e4, e5, -⟩ := index_facts t
  unfold iblk1
  rw [View.read_apply]
  show V c main_v3 _ = V c main_v3 _
  congr 1
  funext a
  apply Fin.ext
  match a with
  | ⟨0, _⟩ => show win1_2.index t (0 : Fin 2) * 1 + 1 * 0 = 0; omega
  | ⟨1, _⟩ => show win1_2.index t (1 : Fin 2) * 256 + 1 * q.val = o.val; omega

/-! ## What a point writes back -/

/-- Entry y of the buffer the body leaves at a point is the linear layer's entry at the place of the output
    array that y has inside the point's block. -/
theorem out_apply (c : Dev nD) (t : Fin cfg1.N) (y : S512x256.Idx) (i : S8192x11008.Idx)
    (h0 : (i 0).val = win1_3.index t (0 : Fin 2) * 512 + (y 0).val)
    (h1 : (i 1).val = win1_3.index t (1 : Fin 2) * 256 + (y 1).val) :
    out1_3 (F := Ideal) (iblk1 V c 0 t) (iblk1 V c 1 t) (iblk1 V c 2 t) y
      = Y1 (V c main_v2) (V c main_v1) (V c main_v3) i := by
  obtain ⟨p, q, rfl⟩ : ∃ (p : Fin 512) (q : Fin 256), y = ix2 p q := ⟨y 0, y 1, eq_ix2 y⟩
  refine (out1_3_apply (iblk1 V c 0 t) (iblk1 V c 1 t) (iblk1 V c 2 t) p q).trans ?_
  unfold Y1
  refine congrArg₂ (fun a b : EReal => a + b) (Finset.sum_congr rfl fun k _ => ?_) ?_
  · exact congrArg₂ (fun a b : EReal => a * b) (xblk_apply V c t p k (i 0) h0) (wblk_apply V c t q k (i 1) h1)
  · exact bblk_apply V c t q (i 1) h1

/-- What point t writes back is its block of the linear layer of the arrays as the region found them. -/
theorem flushed_eq (c : Dev nD) (t : Fin cfg1.N) :
    (dat1 (F := Ideal) V c).flushed 3 t
      = ((cfg1.win 3).blk t).view.read (Elt Ideal) (Y1 (V c main_v2) (V c main_v1) (V c main_v3)) := by
  show (cfg1.win 3).cut (grid1.coords t) ((dat1 (F := Ideal) V c).after 3 t) = _
  rw [after1_3]
  funext y
  rw [View.read_apply]
  refine out_apply V c t y (((cfg1.win 3).blk t).view.emb y) ?_ ?_
  · show win1_3.index t (0 : Fin 2) * 512 + 1 * (y 0).val = _; omega
  · show win1_3.index t (1 : Fin 2) * 256 + 1 * (y 1).val = _; omega

/-! ## The blocks tile the output -/

/-- An index of the output array is in point t's block iff each coordinate is in the block's range on its axis. -/
theorem mem_blk (t : Fin cfg1.N) (i : S8192x11008.Idx) :
    i ∈ ((cfg1.win 3).blk t).view.set
      ↔ ∀ a : Fin 2, win1_3.index t a * S512x256.size a ≤ (i a).val
          ∧ (i a).val < win1_3.index t a * S512x256.size a + S512x256.size a := by
  show i ∈ ((View.whole main_v4).slice (win1_3.rect t)).set ↔ _
  rw [View.set_slice_whole, Rect.mem_set_unit]
  exact Iff.rfl

/-- Entry (r, o) of the output lies in the block of the point whose block index is (r / 512, o / 256). -/
theorem cover (i : S8192x11008.Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  obtain ⟨t, q0, q1⟩ := index_onto ⟨(i 0).val / 512, by omega⟩ ⟨(i 1).val / 256, by omega⟩
  have q0' : win1_3.index t (0 : Fin 2) = (i 0).val / 512 := q0
  have q1' : win1_3.index t (1 : Fin 2) = (i 1).val / 256 := q1
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 256 ≤ (i 1).val ∧ (i 1).val < win1_3.index t (1 : Fin 2) * 256 + 256
    omega

/-! ## The array after the region -/

/-- After the region its output array holds the linear layer of the arrays it was entered with. -/
theorem arr1 (c : Dev nD) :
    (dat1 (F := Ideal) V c).arrAt 3 cfg1.N = Y1 (V c main_v2) (V c main_v1) (V c main_v3) :=
  (dat1 (F := Ideal) V c).arrAt_eq_of_cover 3 (Y1 (V c main_v2) (V c main_v1) (V c main_v3))
    (fun t _ => flushed_eq V c t) cover

end Cert.KernelIdeal.Linear

end
-- ==== Proof.KernelValue.lean ====
/-
  What the idealised kernel program leaves in its result buffer, as one function of the four arguments.

  The program is: reshape the 352256 scales to 11008 × 32; the quantisation region; reshape x to 8192 × 4096 and the
  bias to 1 × 11008; the linear-layer region; reshape the 8192 × 11008 output to 4 × 2048 × 11008. Reading the
  buffer contents at each boundary back to the launch memory, the result is the composition

      reshape ∘ linear (reshape x) (quantise w (reshape scale)) (reshape bias).

  Row-major reshapes only rename indices: row 2048·b + t of the flattened x is (b, t); entry (o, g) of the scale
  matrix is scale 32·o + g, and the column group of column k is ⌊k/128⌋, so weight entry (o, k) meets scale
  32·o + ⌊k/128⌋; entry (0, o) of the bias row is bias o. Hence the composition is the specification's result.
-/
import proofs.«179462_j65506841199020_1_alg».proof.Proof.QuantArray
import proofs.«179462_j65506841199020_1_alg».proof.Proof.MatmulArray
import Idealize.ShloMosaic.Lib.StableHlo.Run
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Quant Cert.KernelIdeal.Linear
open Idealize.ShloMosaic Idealize.ShloMosaic.TcCoe Idealize.ShloMosaic.ValueIdx Idealize.ShloMosaic.StableHlo Idealize.SL.Sem
open scoped BigOperators

/-! ## The composition, on any four arrays -/

/-- Reshapes, the quantised weights and the linear layer composed are the specification's result. -/
theorem compose_eq (x : (⟨S4x2048x4096, .f32⟩ : BufTy).Contents (Elt Ideal)) (w : (⟨S11008x4096, .f32⟩ : BufTy).Contents (Elt Ideal))
    (bias : (⟨S11008, .f32⟩ : BufTy).Contents (Elt Ideal)) (s : (⟨S352256, .f32⟩ : BufTy).Contents (Elt Ideal)) :
    shapeCast S4x2048x11008
        (Y1 (shapeCast S8192x4096 x shapeCasts_S4x2048x4096_S8192x4096)
          (Q0 w (shapeCast S11008x32 s shapeCasts_S352256_S11008x32))
          (shapeCast S1x11008 bias shapeCasts_S11008_S1x11008))
        shapeCasts_S8192x11008_S4x2048x11008
      = Cert.Spec.Y x w bias s := by
  funext j
  obtain ⟨b, t, o, rfl⟩ : ∃ (b : Fin 4) (t : Fin 2048) (o : Fin 11008), j = ix3 b t o := ⟨j 0, j 1, j 2, eq_ix3 j⟩
  have hb := b.isLt
  have ht := t.isLt
  have ho := o.isLt
  -- row 2048·b + t of the flattened arrays
  have hr : b.val * 2048 + t.val < 8192 := by omega
  have hX : ∀ k : Fin 4096, shapeCast S8192x4096 x shapeCasts_S4x2048x4096_S8192x4096 (ix2 (⟨b.val * 2048 + t.val, hr⟩ : Fin 8192) k) = x (ix3 b t k) :=
    fun k => shapeCast_apply x shapeCasts_S4x2048x4096_S8192x4096 _ _ (by
      rw [Shape.rowMajor_val_three, Shape.rowMajor_val_two]
      show (b.val * 2048 + t.val) * 4096 + k.val = (b.val * 2048 + t.val) * 4096 + k.val
      rfl)
  have hS : ∀ k : Fin 4096, shapeCast S11008x32 s shapeCasts_S352256_S11008x32 (ix2 o (colGrp k)) = s (ix1 (Cert.Spec.grp o k)) :=
    fun k => shapeCast_apply s shapeCasts_S352256_S11008x32 _ _ (by
      rw [Shape.rowMajor_val_one, Shape.rowMajor_val_two]
      show o.val * 32 + k.val / 128 = o.val * 32 + k.val / 128
      rfl)
  have hB : shapeCast S1x11008 bias shapeCasts_S11008_S1x11008 (ix2 (0 : Fin 1) o) = bias (ix1 o) :=
    shapeCast_apply bias shapeCasts_S11008_S1x11008 _ _ (by
      rw [Shape.rowMajor_val_one, Shape.rowMajor_val_two]
      show o.val = 0 * 11008 + o.val
      omega)
  rw [shapeCast_apply _ shapeCasts_S8192x11008_S4x2048x11008 (ix3 b t o) (ix2 (⟨b.val * 2048 + t.val, hr⟩ : Fin 8192) o) (by
      rw [Shape.rowMajor_val_two, Shape.rowMajor_val_three]
      show (b.val * 2048 + t.val) * 11008 + o.val = (b.val * 2048 + t.val) * 11008 + o.val
      rfl)]
  show (∑ k : Fin 4096, (shapeCast S8192x4096 x shapeCasts_S4x2048x4096_S8192x4096 (ix2 (⟨b.val * 2048 + t.val, hr⟩ : Fin 8192) k) : EReal)
        * (Q0 w (shapeCast S11008x32 s shapeCasts_S352256_S11008x32) (ix2 o k) : EReal))
      + (shapeCast S1x11008 bias shapeCasts_S11008_S1x11008 (ix2 (0 : Fin 1) o) : EReal)
    = (∑ k : Fin 4096, x (ix3 b t k) * Cert.Spec.Wq w s o k) + bias (ix1 o)
  rw [hB]
  refine congrArg (· + bias (ix1 o)) (Finset.sum_congr rfl fun k _ => ?_)
  rw [hX k]
  show x (ix3 b t k) * Cert.Spec.qw (w (ix2 o k)) (shapeCast S11008x32 s shapeCasts_S352256_S11008x32 (ix2 o (colGrp k)))
    = x (ix3 b t k) * Cert.Spec.qw (w (ix2 o k)) (s (ix1 (Cert.Spec.grp o k)))
  rw [hS k]

/-! ## The buffer contents at the segment boundaries, read back to the launch memory -/

variable (m : (ℓ : Loc nD τ sig) → Buf (Elt Ideal) ℓ) (ρ : Dev nD → PrngReg)

/-- The quantisation region is entered with the weight as launched. -/
theorem entry0_weight (c : Dev nD) : V1 m ρ c main_arg1 = m ((c : Thread nD τ).loc main_arg1) := by
  show StableHlo.after hostOps0 (W0 m ρ c) (Proc.devRef .tc main_arg1) = _
  after_results <;> rfl

/-- … and with the scales reshaped to 11008 × 32. -/
theorem entry0_scale (c : Dev nD) :
    V1 m ρ c main_v0 = shapeCast S11008x32 (m ((c : Thread nD τ).loc main_arg3)) shapeCasts_S352256_S11008x32 := by
  show StableHlo.after hostOps0 (W0 m ρ c) (Proc.devRef .tc main_v0) = _
  after_results <;> rfl

/-- The x and bias arguments reach the second host stretch as launched. -/
theorem exit0_x (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)

theorem exit0_bias (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

/-- The linear-layer region is entered with x flattened, … -/
theorem entry1_x (c : Dev nD) :
    V3 m ρ c main_v2 = shapeCast S8192x4096 (m ((c : Thread nD τ).loc main_arg0)) shapeCasts_S4x2048x4096_S8192x4096 := by
  have h : V3 m ρ c main_v2 = shapeCast S8192x4096 (W2 m ρ c (Proc.devRef .tc main_arg0)) shapeCasts_S4x2048x4096_S8192x4096 := by
    show StableHlo.after hostOps1 (W2 m ρ c) (Proc.devRef .tc main_v2) = _
    after_results <;> rfl
  rw [h, exit0_x]

/-- … the bias as a row, … -/
theorem entry1_bias (c : Dev nD) :
    V3 m ρ c main_v3 = shapeCast S1x11008 (m ((c : Thread nD τ).loc main_arg2)) shapeCasts_S11008_S1x11008 := by
  have h : V3 m ρ c main_v3 = shapeCast S1x11008 (W2 m ρ c (Proc.devRef .tc main_arg2)) shapeCasts_S11008_S1x11008 := by
    show StableHlo.after hostOps1 (W2 m ρ c) (Proc.devRef .tc main_v3) = _
    after_results <;> rfl
  rw [h, exit0_bias]

/-- … and the quantised weights the first region left. -/
theorem entry1_weights (c : Dev nD) :
    V3 m ρ c main_v1
      = Q0 (m ((c : Thread nD τ).loc main_arg1)) (shapeCast S11008x32 (m ((c : Thread nD τ).loc main_arg3)) shapeCasts_S352256_S11008x32) := by
  have h : V3 m ρ c main_v1 = W2 m ρ c (Proc.devRef .tc main_v1) := by
    show StableHlo.after hostOps1 (W2 m ρ c) (Proc.devRef .tc main_v1) = _
    after_results <;> rfl
  refine h.trans ((W2_arr m ρ c 2).trans ((arr0 (V1 m ρ) c).trans ?_))
  rw [entry0_weight, entry0_scale]

/-- The result buffer after the last reshape. -/
theorem result_eq (c : Dev nD) :
    W5 m ρ c (Proc.devRef .tc main_v5)
      = Cert.Spec.Y (m ((c : Thread nD τ).loc main_arg0)) (m ((c : Thread nD τ).loc main_arg1))
          (m ((c : Thread nD τ).loc main_arg2)) (m ((c : Thread nD τ).loc main_arg3)) := by
  have h : W5 m ρ c (Proc.devRef .tc main_v5)
      = shapeCast S4x2048x11008 (W4 m ρ c (Proc.devRef .tc main_v4)) shapeCasts_S8192x11008_S4x2048x11008 := by
    show StableHlo.after hostOps2 (W4 m ρ c) (Proc.devRef .tc main_v5) = _
    after_results <;> rfl
  have h4 : W4 m ρ c (Proc.devRef .tc main_v4) = Y1 (V3 m ρ c main_v2) (V3 m ρ c main_v1) (V3 m ρ c main_v3) :=
    (W4_arr m ρ c 3).trans (arr1 (V3 m ρ) c)
  rw [h, h4, entry1_x, entry1_weights, entry1_bias]
  exact compose_eq _ _ _ _

end Cert.KernelIdeal.Result

end
-- ==== Proof.RefValue.lean ====
/-
  The reference's result is the specification.

  The reference flattens the weight to 352256 groups of 128, divides each group by its clamped scale, takes
  tanh and sign of the quotient, replaces a zero sign by one, forms (sign + tanh) − tanh, multiplies by the
  clamped scale again, reshapes back to 11008 × 4096, contracts x with it and adds the bias. Entry (o, i) of
  the weight is entry ⌊(4096·o + i)/128⌋ = 32·o + ⌊i/128⌋ of the groups, column i mod 128, and for real weight
  and scale the straight-through value is the quantised entry.
-/
import proofs.«179462_j65506841199020_1_alg».proof.Proof.Gen.ReferenceIdeal.Read
import proofs.«179462_j65506841199020_1_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open scoped BigOperators

/-! ## Where entry (o, k) of the weight sits among the groups

Entry (o, k) has flat position 4096·o + k, hence group ⌊(4096·o + k)/128⌋ = 32·o + ⌊k/128⌋ and column
(4096·o + k) mod 128; reading group g, column l back gives flat position 128·g + l = 4096·o + k. -/

/-- Going from (o, k) to its group and column and back to the matrix gives (o, k) again. -/
theorem weight_index (o : Fin 11008) (k : Fin 4096) :
    idx_main_v0 (idx_main_v1 (idx_main_v18 (idx_main_v19 (ix2 o k)))) = ix2 o k := by
  funext a
  refine Fin.ext ?_
  have ho := o.isLt
  have hk := k.isLt
  match a with
  | ⟨0, _⟩ =>
    show ((o.val * 4096 + k.val) / 128 * 128 + (o.val * 4096 + k.val) % 128) / 4096 = o.val
    omega
  | ⟨1, _⟩ =>
    show ((o.val * 4096 + k.val) / 128 * 128 + (o.val * 4096 + k.val) % 128) % 4096 = k.val
    omega

/-- The group of entry (o, k) is 32·o + ⌊k/128⌋. -/
theorem scale_index (o : Fin 11008) (k : Fin 4096) :
    idx_main_v5 (idx_main_v6 (idx_main_v18 (idx_main_v19 (ix2 o k)))) = ix1 (Cert.Spec.grp o k) := by
  funext a
  refine Fin.ext ?_
  have ho := o.isLt
  have hk := k.isLt
  match a with
  | ⟨0, _⟩ =>
    show (o.val * 4096 + k.val) / 128 = o.val * 32 + k.val / 128
    omega

/-! ## The straight-through value of one group entry -/

/-- The clamped scale of a group, broadcast along its 128 columns. -/
theorem scale_stage (x3 : (⟨S352256, .f32⟩ : BufTy).Contents (Elt Ideal)) (j : S352256x128.Idx) :
    val_main_v6 (F := Ideal) x3 j = Cert.Spec.gscale (x3 (idx_main_v5 (idx_main_v6 j))) := by
  rw [val_main_v6_apply, val_main_v5_apply, val_main_v4_apply, val_main_v2_apply, val_main_v3_apply,
    val_main_cst_apply]
  rfl

/-- The second broadcast of the clamped scale is the same array. -/
theorem scale_stage' (x3 : (⟨S352256, .f32⟩ : BufTy).Contents (Elt Ideal)) (j : S352256x128.Idx) :
    val_main_v16 (F := Ideal) x3 j = Cert.Spec.gscale (x3 (idx_main_v5 (idx_main_v6 j))) := by
  rw [val_main_v16_apply, val_main_v5_apply, val_main_v4_apply, val_main_v2_apply, val_main_v3_apply,
    val_main_cst_apply]
  rfl

/-- The zero the sign is compared with. -/
theorem zero_stage (j : S352256x128.Idx) : val_main_v10 (F := Ideal) j = 0 := by
  rw [val_main_v10_apply, val_main_cst_0_apply]
  exact Ideal.ofBits_zero_f32

/-- The one that replaces a zero sign. -/
theorem one_stage (j : S352256x128.Idx) : val_main_v12 (F := Ideal) j = 1 := by
  rw [val_main_v12_apply, val_main_cst_1_apply]
  exact Ideal.ofBits_one_f32

/-- Group g, column l of the rescaled straight-through array is the straight-through form of the weight
    at flat position 128·g + l and the scale of group g. -/
theorem group_stage (x1 : (⟨S11008x4096, .f32⟩ : BufTy).Contents (Elt Ideal))
    (x3 : (⟨S352256, .f32⟩ : BufTy).Contents (Elt Ideal)) (j : S352256x128.Idx) :
    val_main_v17 (F := Ideal) x1 x3 j
      = Cert.Spec.rform (x1 (idx_main_v0 (idx_main_v1 j))) (x3 (idx_main_v5 (idx_main_v6 j))) := by
  have hw : val_main_v1 (F := Ideal) x1 j = x1 (idx_main_v0 (idx_main_v1 j)) := by
    rw [val_main_v1_apply, val_main_v0_apply]
  rw [val_main_v17_apply, val_main_v15_apply, val_main_v14_apply, val_main_v13_apply, val_main_v11_apply,
    val_main_v9_apply, val_main_v8_apply, val_main_v7_apply, hw, scale_stage, scale_stage', zero_stage, one_stage]
  rfl

/-! ## The three stages -/

/-- Entry (o, k) of the reference's rebuilt weight is the quantised entry, for real weights and scales. -/
theorem weight_stage (x1 : (⟨S11008x4096, .f32⟩ : BufTy).Contents (Elt Ideal))
    (x3 : (⟨S352256, .f32⟩ : BufTy).Contents (Elt Ideal))
    (h1 : ∀ i, ∃ r : ℝ, x1 i = (r : EReal)) (h3 : ∀ i, ∃ r : ℝ, x3 i = (r : EReal))
    (o : Fin 11008) (k : Fin 4096) :
    val_main_v19 (F := Ideal) x1 x3 (ix2 o k) = Cert.Spec.Wq x1 x3 o k := by
  rw [val_main_v19_apply, val_main_v18_apply, group_stage, weight_index, scale_index]
  obtain ⟨v, hv⟩ := h1 (ix2 o k)
  obtain ⟨r, hr⟩ := h3 (ix1 (Cert.Spec.grp o k))
  unfold Cert.Spec.Wq
  rw [hv, hr]
  exact Cert.Spec.rform_eq v r

/-- The broadcast bias at (b, t, o) is the bias at o. -/
theorem bias_stage (x2 : (⟨S11008, .f32⟩ : BufTy).Contents (Elt Ideal)) (b : Fin 4) (t : Fin 2048) (o : Fin 11008) :
    val_main_v22 (F := Ideal) x2 (ix3 b t o) = x2 (ix1 o) := by
  rw [val_main_v22_apply, val_main_v21_apply]
  refine congrArg x2 (funext fun a => ?_)
  match a with
  | ⟨0, _⟩ => rfl

/-- For real weights and scales the reference's last stage is the specification's result. -/
theorem ref_eq (x0 : (⟨S4x2048x4096, .f32⟩ : BufTy).Contents (Elt Ideal)) (x1 : (⟨S11008x4096, .f32⟩ : BufTy).Contents (Elt Ideal))
    (x2 : (⟨S11008, .f32⟩ : BufTy).Contents (Elt Ideal)) (x3 : (⟨S352256, .f32⟩ : BufTy).Contents (Elt Ideal))
    (h1 : ∀ i, ∃ r : ℝ, x1 i = (r : EReal)) (h3 : ∀ i, ∃ r : ℝ, x3 i = (r : EReal)) :
    val_main_v23 (F := Ideal) x0 x1 x2 x3 = Cert.Spec.Y x0 x1 x2 x3 := by
  funext i
  obtain ⟨b, t, o, rfl⟩ : ∃ b t o, i = ix3 b t o := ⟨i 0, i 1, i 2, eq_ix3 i⟩
  rw [val_main_v23_apply, val_main_v20_apply, bias_stage]
  show (∑ k : Fin 4096, _) + x2 (ix1 o) = Cert.Spec.Yat x0 x1 x2 x3 b t o
  unfold Cert.Spec.Yat
  congr 1
  refine Finset.sum_congr rfl fun k _ => ?_
  have hl : lidx_main_v20 (ix3 b t o) k = ix3 b t k := by
    funext a
    match a with
    | ⟨0, _⟩ => rfl
    | ⟨1, _⟩ => rfl
    | ⟨2, _⟩ => rfl
  have hr : ridx_main_v20 (ix3 b t o) k = ix2 o k := by
    funext a
    match a with
    | ⟨0, _⟩ => rfl
    | ⟨1, _⟩ => rfl
  rw [hl, hr, weight_stage x1 x3 h1 h3]

end Cert.ReferenceIdeal.RefValue

end
-- ==== Proof.Finite.lean ====
/-
  What the precondition gives: every weight and every scale is a real number.

  The precondition is the conjunction of four tests "every |entry| < +∞", one per input. An extended real whose
  absolute value max a (−a) is below +∞ is neither +∞ nor −∞, hence a real.
-/
import proofs.«179462_j65506841199020_1_alg».proof.Pre_finite_inputs
import proofs.«179462_j65506841199020_1_alg».proof.Proof.Gen.Pre_finite_inputs
import Idealize.ShloMosaic.PureOps.Ideal
import Idealize.ShloMosaic.Lib.ValueIdx
import Idealize.ShloMosaic.Lib.ReduceAll

set_option maxRecDepth 16384

noncomputable section

namespace Cert.Finite

open Cert.Pre_finite_inputs Idealize.ShloMosaic Idealize.ShloMosaic.ValueIdx

/-- The shape with no axes has one index. -/
local instance subsingleton_scalar_idx : Subsingleton S_.Idx := ⟨fun a b => funext fun d => d.elim0⟩

/-- An extended real whose absolute value max x (−x) lies below +∞ is a real. -/
theorem real_of_abs_lt_top (x : EReal) (hx : max x (-x) < ⊤) : ∃ r : ℝ, x = (r : EReal) := by
  induction x using EReal.rec with
  | bot => simp at hx
  | coe r => exact ⟨r, rfl⟩
  | top => simp at hx

/-- The float word 0x7F800000 is +∞. -/
theorem inf_word : Ideal.ofBits .f32 0x7F800000#32 = ⊤ := by simp [Ideal.ofBits, Ideal.ieee]

/-- The element test "|x| < +∞" being true says x is a real. -/
theorem real_of_test (x : EReal)
    (hx : Ideal.cmp .olt (max x (-x)) (Ideal.ofBits .f32 0x7F800000#32) = 1#1) : ∃ r : ℝ, x = (r : EReal) := by
  rw [inf_word] at hx
  refine real_of_abs_lt_top x ?_
  by_contra hn
  simp [Ideal.cmp, hn] at hx

/-- Under the precondition the weight and the scale arrays hold reals. -/
theorem real_of_pre [Cert.Pre_finite_inputs.Facts] (a0 : FVec Ideal S4x2048x4096 .f32) (a1 : FVec Ideal S11008x4096 .f32)
    (a2 : FVec Ideal S11008 .f32) (a3 : FVec Ideal S352256 .f32)
    (h : Cert.Pre_finite_inputs.fn (F := Ideal) a0 a1 a2 a3 = fun _ => 1#1) :
    (∀ i, ∃ r : ℝ, a1 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, -⟩ := IntOp.andi_eq_one.1 h123
  obtain ⟨-, h2⟩ := IntOp.andi_eq_one.1 h12
  exact ⟨fun i => real_of_test (a1 i) (Host.reduce_andi_all _ _ _ _ ix0 h2 i),
    fun i => real_of_test (a3 i) (Host.reduce_andi_all _ _ _ _ ix0 h4 i)⟩

end Cert.Finite

end
-- ==== Proof.lean ====
/-
  The kernel binarises a weight matrix group by group and applies the linear layer; the reference does the same
  through a straight-through estimator. Over the extended reals both end at

      y[b, t, o] = ∑ᵢ x[b, t, i] · sgn(w[o, i]) · max |scale[32·o + ⌊i/128⌋]| ε + bias[o],

  with sgn = −1 below zero and +1 elsewhere (Proof/Spec.lean).

  * The kernel side. Its two regions' output arrays are one function each of the arrays they are entered with
    (Proof/QuantArray.lean over Proof/QuantBlock.lean; Proof/MatmulArray.lean over Proof/MatmulBlock.lean); the
    contents of the result buffer, folded back through the reshapes to the launch memory, are the formula above
    (Proof/KernelValue.lean); the run that names the result buffer is Proof/KernelRun.lean. No finiteness is used.
  * The reference side. Its run ends at the composed term of its 27 host operations; read index by index, with the
    flat group index ⌊(4096·o + i)/128⌋ = 32·o + ⌊i/128⌋, each quantised entry is ((h + tanh n) − tanh n) · S with
    S = max |scale| ε, n = w / S and h the sign of n with zero counted as one (Proof/RefValue.lean). HERE the
    precondition is used: for real w and scale, S is a positive real, tanh n is real and cancels, and
    sign (w / S) = sign w (Proof/Spec.lean, `rform_eq`); the reals come from the precondition's four finiteness
    tests (Proof/Finite.lean).
  * The three frames are the generated frames and the reference's run with its result dropped; each of the 32
    sign-bit rewrites of the idealisation is the rule's own statement.
-/
import proofs.«179462_j65506841199020_1_alg».proof.Defs
import proofs.«179462_j65506841199020_1_alg».proof.Proof.Gen.Kernel
import proofs.«179462_j65506841199020_1_alg».proof.Proof.Gen.Kernel.Skeleton
import proofs.«179462_j65506841199020_1_alg».proof.Proof.Gen.Kernel.Launch
import proofs.«179462_j65506841199020_1_alg».proof.Proof.Gen.Kernel.Points
import proofs.«179462_j65506841199020_1_alg».proof.Proof.Gen.Kernel.Frame
import proofs.«179462_j65506841199020_1_alg».proof.Proof.Gen.KernelIdeal
import proofs.«179462_j65506841199020_1_alg».proof.Proof.Gen.KernelIdeal.Skeleton
import proofs.«179462_j65506841199020_1_alg».proof.Proof.Gen.KernelIdeal.Launch
import proofs.«179462_j65506841199020_1_alg».proof.Proof.Gen.KernelIdeal.Points
import proofs.«179462_j65506841199020_1_alg».proof.Proof.Gen.KernelIdeal.Frame
import proofs.«179462_j65506841199020_1_alg».proof.Proof.Gen.ReferenceIdeal
import proofs.«179462_j65506841199020_1_alg».proof.Proof.Gen.Pre_finite_inputs
import proofs.«179462_j65506841199020_1_alg».proof.Proof.Gen.ReferenceIdeal.Run
import proofs.«179462_j65506841199020_1_alg».proof.Proof.Gen.ReferenceIdeal.Read
import proofs.«179462_j65506841199020_1_alg».proof.Proof.KernelRun
import proofs.«179462_j65506841199020_1_alg».proof.Proof.KernelValue
import proofs.«179462_j65506841199020_1_alg».proof.Proof.RefValue
import proofs.«179462_j65506841199020_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Each of the 32 column groups reads the weight's sign through its word once; each rewrite is the rule's statement. -/
theorem preserves : Cert.preserves_Kernel_KernelIdeal :=
  ⟨IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32,
   IdealRules.sign_bit.statement Cert.KernelIdeal.S344x128 .f32⟩

/-- Both programs end at the specification's result of the (agreeing) arguments. -/
theorem algebraic : Cert.algebraic_KernelIdeal_ReferenceIdeal := by
  intro m ρ m' ρ' hpre hagree
  refine ⟨fun c => Cert.Spec.Y (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2]
    obtain ⟨h1, h3⟩ := Cert.Finite.real_of_pre _ _ _ _ (hpre c)
    exact Cert.ReferenceIdeal.RefValue.ref_eq _ _ _ _ h1 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
